-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S50000 : Shape := ⟨1, ![50000]⟩
abbrev S25000 : Shape := ⟨1, ![25000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S50000 : S_.BroadcastsInDim S50000 (![] : Fin 0 → Fin S50000.rank)
  reducesTo_S50000_S_d0 : S50000.ReducesTo [0] S_
  bcast_S_S25000 : S_.BroadcastsInDim S25000 (![] : Fin 0 → Fin S25000.rank)
  reducesTo_S25000_S_d0 : S25000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S25000 1) : IVec S_ 1 :=
  let main_c_5 : IVec S_ 1 := constantI S_ 1 1#1
  let main_v17 : IVec S_ 1 := (fun x v => Host.reduce IntOp.andi x v reducesTo_S25000_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S600000 32) (main_arg2 : IVec S600000 32) (main_arg3 : FVec F S600000 .f32) (main_arg4 : FVec F S50000 .f32) (main_arg5 : FVec F S25000 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S50000 .f32 := Host.absf main_arg4
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S25000 .f32 := Host.absf main_arg5
  let main_cst_4 : FVec F S_ .f32 := constant S_ .f32 0x7F800000#32
  let main_v15 : FVec F S25000 .f32 := broadcastInDim S25000 ![] bcast_S_S25000 main_cst_4
  let main_v16 : IVec S25000 1 := cmpf .olt main_v14 main_v15
  fn_part1 (F := F) main_arg6 main_arg7 main_v13 main_v16
-- ==== Kernel.lean ====
abbrev S50000x128 : Shape := ⟨2, ![50000, 128]⟩
abbrev S600000 : Shape := ⟨1, ![600000]⟩
abbrev S50000 : Shape := ⟨1, ![50000]⟩
abbrev S25000 : Shape := ⟨1, ![25000]⟩
abbrev S128x128 : Shape := ⟨2, ![128, 128]⟩
abbrev S128 : Shape := ⟨1, ![128]⟩
abbrev S50000x1 : Shape := ⟨2, ![50000, 1]⟩
abbrev S25000x1 : Shape := ⟨2, ![25000, 1]⟩
abbrev S5000x128 : Shape := ⟨2, ![5000, 128]⟩
abbrev S5000x1 : Shape := ⟨2, ![5000, 1]⟩
abbrev S_ : Shape := ⟨0, ![]⟩
abbrev S600000x1 : Shape := ⟨2, ![600000, 1]⟩
abbrev S600000x128 : Shape := ⟨2, ![600000, 128]⟩
abbrev S25000x128 : Shape := ⟨2, ![25000, 128]⟩
abbrev S1x128 : Shape := ⟨2, ![1, 128]⟩

abbrev nBuf : Space → Nat
  | .hbm => 47
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S50000, .f32⟩
  | .hbm, ⟨5, _⟩ => ⟨S25000, .f32⟩
  | .hbm, ⟨6, _⟩ => ⟨S128x128, .f32⟩
  | .hbm, ⟨7, _⟩ => ⟨S128, .f32⟩
  | .hbm, ⟨8, _⟩ => ⟨S50000x1, .f32⟩
  | .hbm, ⟨9, _⟩ => ⟨S25000x1, .f32⟩
  | .hbm, ⟨10, _⟩ => ⟨S50000x128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S600000x1, .f32⟩
  | .hbm, ⟨21, _⟩ => ⟨S600000x128, .f32⟩
  | .hbm, ⟨22, _⟩ => ⟨S600000x128, .f32⟩
  | .hbm, ⟨23, _⟩ => ⟨S_, .f32⟩
  | .hbm, ⟨24, _⟩ => ⟨S25000x128, .f32⟩
  | .hbm, ⟨25, _⟩ => ⟨S600000x1, .i32⟩
  | .hbm, ⟨26, _⟩ => ⟨S25000x128, .f32⟩
  | .hbm, ⟨27, _⟩ => ⟨S25000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S600000x1, .f32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S128x128, .f32⟩
  | .hbm, ⟨45, _⟩ => ⟨S1x128, .f32⟩
  | .hbm, ⟨46, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S50000_S50000x1 : S50000.ShapeCasts S50000x1
  shapeCasts_S25000_S25000x1 : S25000.ShapeCasts S25000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S25000x128 : S_.BroadcastsInDim S25000x128 (![] : Fin 0 → Fin S25000x128.rank)
  shapeCasts_S5000x128_S5000x128 : S5000x128.ShapeCasts S5000x128
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S25000x128_S600000x1_S600000x128_1_0_0_1_wf : ScatterDims.WF S25000x128 S600000x1 S600000x128 [1] [0] [0] 1
  gather_S25000x128_S600000x1_S600000x128_1_0_n_n_0_1_1128_wf : GatherDims.WF S25000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S25000x1.size a
  hwx1_1 : ∀ i : grid1.Coords, EltTy.bits .f32 = 32 ∨ (Rect.block (s := S25000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S25000x128.size a
  hwx1_2 : ∀ i : grid1.Coords, EltTy.bits .f32 = 32 ∨ (Rect.block (s := S25000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S25000x128_S600000x1_S600000x128_1_0_0_1 : ScatterDims S25000x128 S600000x1 S600000x128 where
  updateWindowDims := [1]
  insertedWindowDims := [0]
  scatterDimsToOperandDims := [0]
  indexVectorDim := 1
  wf := scatter_S25000x128_S600000x1_S600000x128_1_0_0_1_wf
def gather_S25000x128_S600000x1_S600000x128_1_0_n_n_0_1_1128 : GatherDims S25000x128 S600000x1 S600000x128 where
  offsetDims := [1]
  collapsedSliceDims := [0]
  operandBatchingDims := []
  startIndicesBatchingDims := []
  startIndexMap := [0]
  indexVectorDim := 1
  sliceSizes := ![1, 128]
  wf := gather_S25000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S50000 : Shape := ⟨1, ![50000]⟩
abbrev S25000 : Shape := ⟨1, ![25000]⟩
abbrev S128x128 : Shape := ⟨2, ![128, 128]⟩
abbrev S128 : Shape := ⟨1, ![128]⟩
abbrev S50000x1 : Shape := ⟨2, ![50000, 1]⟩
abbrev S_ : Shape := ⟨0, ![]⟩
abbrev S600000x1 : Shape := ⟨2, ![600000, 1]⟩
abbrev S600000x128 : Shape := ⟨2, ![600000, 128]⟩
abbrev S25000x128 : Shape := ⟨2, ![25000, 128]⟩
abbrev S25000x1 : Shape := ⟨2, ![25000, 1]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S50000, .f32⟩
  | .hbm, ⟨5, _⟩ => ⟨S25000, .f32⟩
  | .hbm, ⟨6, _⟩ => ⟨S128x128, .f32⟩
  | .hbm, ⟨7, _⟩ => ⟨S128, .f32⟩
  | .hbm, ⟨8, _⟩ => ⟨S50000x1, .f32⟩
  | .hbm, ⟨9, _⟩ => ⟨S50000x128, .f32⟩
  | .hbm, ⟨10, _⟩ => ⟨S50000x128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S600000x1, .f32⟩
  | .hbm, ⟨21, _⟩ => ⟨S600000x128, .f32⟩
  | .hbm, ⟨22, _⟩ => ⟨S600000x128, .f32⟩
  | .hbm, ⟨23, _⟩ => ⟨S_, .f32⟩
  | .hbm, ⟨24, _⟩ => ⟨S25000x128, .f32⟩
  | .hbm, ⟨25, _⟩ => ⟨S600000x1, .i32⟩
  | .hbm, ⟨26, _⟩ => ⟨S25000x128, .f32⟩
  | .hbm, ⟨27, _⟩ => ⟨S25000x1, .f32⟩
  | .hbm, ⟨28, _⟩ => ⟨S25000x128, .f32⟩
  | .hbm, ⟨29, _⟩ => ⟨S25000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S600000x1, .f32⟩
  | .hbm, ⟨40, _⟩ => ⟨S600000x128, .f32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S128x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S25000x128 : S_.BroadcastsInDim S25000x128 (![] : Fin 0 → Fin S25000x128.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S25000x128_S600000x1_S600000x128_1_0_0_1_wf : ScatterDims.WF S25000x128 S600000x1 S600000x128 [1] [0] [0] 1
  gather_S25000x128_S600000x1_S600000x128_1_0_n_n_0_1_1128_wf : GatherDims.WF S25000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S25000x128_S600000x1_S600000x128_1_0_0_1 : ScatterDims S25000x128 S600000x1 S600000x128 where
  updateWindowDims := [1]
  insertedWindowDims := [0]
  scatterDimsToOperandDims := [0]
  indexVectorDim := 1
  wf := scatter_S25000x128_S600000x1_S600000x128_1_0_0_1_wf
def gather_S25000x128_S600000x1_S600000x128_1_0_n_n_0_1_1128 : GatherDims S25000x128 S600000x1 S600000x128 where
  offsetDims := [1]
  collapsedSliceDims := [0]
  operandBatchingDims := []
  startIndicesBatchingDims := []
  startIndexMap := [0]
  indexVectorDim := 1
  sliceSizes := ![1, 128]
  wf := gather_S25000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Scale0.lean ====
/-
  The first pallas_call scales each row of a [50000, 128] array by that row's entry of a [50000, 1] column, 5000 rows
  per grid point. Here: the array it leaves is, index by index, `X (r, j) · s (r, 0)`, as one function of the two
  arrays the call finds when it is entered, whatever those are.
-/
import proofs.«131574_j43559558316711_1_alg».proof.Proof.Gen.KernelIdeal.Frame
import proofs.«131574_j43559558316711_1_alg».proof.Proof.LibKeepdims
import Idealize.ShloMosaic.Lib.Pipeline.Value
import Idealize.ShloMosaic.Lib.ValueIdx

set_option maxRecDepth 16384

noncomputable section

namespace Cert.KernelIdeal.Scale0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Row `r` of `X` times entry `(r, 0)` of the column `s`. -/
def scaled (X : FVec Ideal S50000x128 .f32) (s : FVec Ideal S50000x1 .f32) : FVec Ideal S50000x128 .f32 :=
  fun i => X i * s (ix2 (⟨(i 0).val, idx2_lt0 i⟩ : Fin 50000) (0 : Fin 1))

theorem scaled_apply (X : FVec Ideal S50000x128 .f32) (s : FVec Ideal S50000x1 .f32) (r : Fin 50000) (q : Fin 128) :
    scaled X s (ix2 r q) = X (ix2 r q) * s (ix2 r (0 : Fin 1)) := rfl

/-- What one grid point stores, at row `p` and lane `q` of its block: the loaded block's entry times the loaded
    column's entry of that row (the two shape casts change nothing, the broadcast repeats the column along the lanes). -/
theorem stored_apply (x0 : FVec Ideal S5000x128 .f32) (x1 : FVec Ideal S5000x1 .f32) (p : Fin 5000) (q : Fin 128) :
    k0_pay1 (F := Ideal) x0 x1 (ix2 p q) = x0 (ix2 p q) * x1 (ix2 p (0 : Fin 1)) := by
  unfold k0_pay1
  simp only [shapeCast_self]
  rw [mulf_apply, Cert.LibKeepdims.broadcastTo_a1_ab_apply]

/-- If the loaded block is rows `5000 T … 5000 T + 4999` of `X` and the loaded column the same rows of `s`, what
    the point stores is those rows of `scaled X s`. -/
theorem stored_rows (X : FVec Ideal S50000x128 .f32) (s : FVec Ideal S50000x1 .f32)
    (x0 : FVec Ideal S5000x128 .f32) (x1 : FVec Ideal S5000x1 .f32) (T : ℕ) (hT : T ≤ 9)
    (h0 : ∀ (p : Fin 5000) (q : Fin 128), x0 (ix2 p q) = X (ix2 (⟨T * 5000 + p.val, by have := p.isLt; omega⟩ : Fin 50000) q))
    (h1 : ∀ (p : Fin 5000), x1 (ix2 p (0 : Fin 1)) = s (ix2 (⟨T * 5000 + p.val, by have := p.isLt; omega⟩ : Fin 50000) (0 : Fin 1)))
    (p : Fin 5000) (q : Fin 128) :
    k0_pay1 (F := Ideal) x0 x1 (ix2 p q) = scaled X s (ix2 (⟨T * 5000 + p.val, by have := p.isLt; omega⟩ : Fin 50000) q) := by
  rw [stored_apply, scaled_apply, h0, h1]

variable (V : (c : Dev nD) → (b : Ref sig .tc) → Buf (Elt Ideal) ((c : Thread nD τ).loc b))

/-- The printed index maps over the grid: every window's block row index is the output's, the lane block index 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 9
    ∧ win0_2.index t (1 : Fin 2) = 0 :=
  (by decide +kernel : ∀ t : Fin grid0.N, _)

/-- Every block row index 0 … 9 is some point's. -/
theorem idx_onto : ∀ q0 : Fin 10, ∃ t : Fin cfg0.N, win0_2.index t (0 : Fin 2) = q0.val :=
  (by decide +kernel : ∀ q0 : Fin 10, ∃ t : Fin grid0.N, win0_2.index t (0 : Fin 2) = q0.val)

/-- What point `t` writes back is block `t` of `scaled` of the two arrays the call finds. -/
theorem flushed_eq (c : Dev nD) (t : Fin cfg0.N) :
    (dat0 V c).flushed 2 t = ((cfg0.win 2).blk t).view.read (Elt Ideal) (scaled (V c main_arg0) (V c main_v0)) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine (stored_rows (V c main_arg0) (V c main_v0) (iblk0 V c 0 t) (iblk0 V c 1 t) (win0_2.index t (0 : Fin 2)) e4 ?_ ?_ p q).trans ?_
  · intro p q
    show V c main_arg0 (((cfg0.win 0).blk t).view.emb (ix2 p q)) = _
    refine congrArg (V c main_arg0) (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * q.val = q.val; omega
  · intro p
    show V c main_v0 (((cfg0.win 1).blk t).view.emb (ix2 p (0 : Fin 1))) = _
    refine congrArg (V c main_v0) (funext fun a => Fin.ext ?_)
    match a with
    | ⟨0, _⟩ => show win0_1.index t (0 : Fin 2) * 5000 + 1 * p.val = win0_2.index t (0 : Fin 2) * 5000 + p.val; omega
    | ⟨1, _⟩ => show win0_1.index t (1 : Fin 2) * 1 + 1 * 0 = 0; omega
  · show _ = scaled (V c main_arg0) (V c main_v0) (((cfg0.win 2).blk t).view.emb (ix2 p q))
    refine congrArg (scaled (V c main_arg0) (V c main_v0)) (funext fun a => Fin.ext ?_)
    match a with
    | ⟨0, _⟩ => show win0_2.index t (0 : Fin 2) * 5000 + p.val = win0_2.index t (0 : Fin 2) * 5000 + 1 * p.val; omega
    | ⟨1, _⟩ => show q.val = win0_2.index t (1 : Fin 2) * 128 + 1 * q.val; omega

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v2).slice (win0_2.rect t)).set ↔ _
  rw [View.set_slice_whole, Rect.mem_set_unit]
  exact Iff.rfl

/-- Every index of the array is in the block of the point its row falls to (row `r` in block `r / 5000`). -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := ht
  obtain ⟨-, -, -, -, -, q1⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the call leaves: `scaled` of the two arrays it found. -/
theorem array_eq (c : Dev nD) : (dat0 V c).arrAt 2 cfg0.N = scaled (V c main_arg0) (V c main_v0) :=
  (dat0 V c).arrAt_eq_of_cover 2 (scaled (V c main_arg0) (V c main_v0)) (fun t _ => flushed_eq V c t) cover

end Cert.KernelIdeal.Scale0

end
-- ==== Proof.Scale1.lean ====
/-
  The second pallas_call scales each row of a [25000, 128] array by that row's entry of a [25000, 1] column, 5000 rows
  per grid point. Here: the array it leaves is, index by index, `X (r, j) · s (r, 0)`, as one function of the two
  arrays the call finds when it is entered, whatever those are.
-/
import proofs.«131574_j43559558316711_1_alg».proof.Proof.Gen.KernelIdeal.Frame
import proofs.«131574_j43559558316711_1_alg».proof.Proof.LibKeepdims
import Idealize.ShloMosaic.Lib.Pipeline.Value
import Idealize.ShloMosaic.Lib.ValueIdx

set_option maxRecDepth 16384

noncomputable section

namespace Cert.KernelIdeal.Scale1

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Row `r` of `X` times entry `(r, 0)` of the column `s`. -/
def scaled (X : FVec Ideal S25000x128 .f32) (s : FVec Ideal S25000x1 .f32) : FVec Ideal S25000x128 .f32 :=
  fun i => X i * s (ix2 (⟨(i 0).val, idx2_lt0 i⟩ : Fin 25000) (0 : Fin 1))

theorem scaled_apply (X : FVec Ideal S25000x128 .f32) (s : FVec Ideal S25000x1 .f32) (r : Fin 25000) (q : Fin 128) :
    scaled X s (ix2 r q) = X (ix2 r q) * s (ix2 r (0 : Fin 1)) := rfl

/-- What one grid point stores, at row `p` and lane `q` of its block: the loaded block's entry times the loaded
    column's entry of that row (the two shape casts change nothing, the broadcast repeats the column along the lanes). -/
theorem stored_apply (x0 : FVec Ideal S5000x128 .f32) (x1 : FVec Ideal S5000x1 .f32) (p : Fin 5000) (q : Fin 128) :
    k1_pay1 (F := Ideal) x0 x1 (ix2 p q) = x0 (ix2 p q) * x1 (ix2 p (0 : Fin 1)) := by
  unfold k1_pay1
  simp only [shapeCast_self]
  rw [mulf_apply, Cert.LibKeepdims.broadcastTo_a1_ab_apply]

/-- If the loaded block is rows `5000 T … 5000 T + 4999` of `X` and the loaded column the same rows of `s`, what
    the point stores is those rows of `scaled X s`. -/
theorem stored_rows (X : FVec Ideal S25000x128 .f32) (s : FVec Ideal S25000x1 .f32)
    (x0 : FVec Ideal S5000x128 .f32) (x1 : FVec Ideal S5000x1 .f32) (T : ℕ) (hT : T ≤ 4)
    (h0 : ∀ (p : Fin 5000) (q : Fin 128), x0 (ix2 p q) = X (ix2 (⟨T * 5000 + p.val, by have := p.isLt; omega⟩ : Fin 25000) q))
    (h1 : ∀ (p : Fin 5000), x1 (ix2 p (0 : Fin 1)) = s (ix2 (⟨T * 5000 + p.val, by have := p.isLt; omega⟩ : Fin 25000) (0 : Fin 1)))
    (p : Fin 5000) (q : Fin 128) :
    k1_pay1 (F := Ideal) x0 x1 (ix2 p q) = scaled X s (ix2 (⟨T * 5000 + p.val, by have := p.isLt; omega⟩ : Fin 25000) q) := by
  rw [stored_apply, scaled_apply, h0, h1]

variable (V : (c : Dev nD) → (b : Ref sig .tc) → Buf (Elt Ideal) ((c : Thread nD τ).loc b))

/-- The printed index maps over the grid: every window's block row index is the output's, the lane block index 0. -/
theorem idx_facts : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (0 : Fin 2) ≤ 4
    ∧ win1_2.index t (1 : Fin 2) = 0 :=
  (by decide +kernel : ∀ t : Fin grid1.N, _)

/-- Every block row index 0 … 9 is some point's. -/
theorem idx_onto : ∀ q0 : Fin 5, ∃ t : Fin cfg1.N, win1_2.index t (0 : Fin 2) = q0.val :=
  (by decide +kernel : ∀ q0 : Fin 5, ∃ t : Fin grid1.N, win1_2.index t (0 : Fin 2) = q0.val)

/-- What point `t` writes back is block `t` of `scaled` of the two arrays the call finds. -/
theorem flushed_eq (c : Dev nD) (t : Fin cfg1.N) :
    (dat1 V c).flushed 2 t = ((cfg1.win 2).blk t).view.read (Elt Ideal) (scaled (V c main_v15) (V c main_v1)) := by
  show (cfg1.win 2).cut (grid1.coords t) ((dat1 V c).after 2 t) = _
  rw [after1_2]
  unfold out1_2
  rw [View.canon_unit_zero hz]
  simp only [View.ld_unit_zero (S := S5000x128) hz, View.ld_unit_zero (S := S5000x1) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine (stored_rows (V c main_v15) (V c main_v1) (iblk1 V c 0 t) (iblk1 V c 1 t) (win1_2.index t (0 : Fin 2)) e4 ?_ ?_ p q).trans ?_
  · intro p q
    show V c main_v15 (((cfg1.win 0).blk t).view.emb (ix2 p q)) = _
    refine congrArg (V c main_v15) (funext fun a => Fin.ext ?_)
    match a with
    | ⟨0, _⟩ => show win1_0.index t (0 : Fin 2) * 5000 + 1 * p.val = win1_2.index t (0 : Fin 2) * 5000 + p.val; omega
    | ⟨1, _⟩ => show win1_0.index t (1 : Fin 2) * 128 + 1 * q.val = q.val; omega
  · intro p
    show V c main_v1 (((cfg1.win 1).blk t).view.emb (ix2 p (0 : Fin 1))) = _
    refine congrArg (V c main_v1) (funext fun a => Fin.ext ?_)
    match a with
    | ⟨0, _⟩ => show win1_1.index t (0 : Fin 2) * 5000 + 1 * p.val = win1_2.index t (0 : Fin 2) * 5000 + p.val; omega
    | ⟨1, _⟩ => show win1_1.index t (1 : Fin 2) * 1 + 1 * 0 = 0; omega
  · show _ = scaled (V c main_v15) (V c main_v1) (((cfg1.win 2).blk t).view.emb (ix2 p q))
    refine congrArg (scaled (V c main_v15) (V c main_v1)) (funext fun a => Fin.ext ?_)
    match a with
    | ⟨0, _⟩ => show win1_2.index t (0 : Fin 2) * 5000 + p.val = win1_2.index t (0 : Fin 2) * 5000 + 1 * p.val; omega
    | ⟨1, _⟩ => show q.val = win1_2.index t (1 : Fin 2) * 128 + 1 * q.val; omega

/-- An index of the array is in point `t`'s block iff each coordinate is in the block's range on its axis. -/
theorem mem_blk (t : Fin cfg1.N) (i : S25000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v16).slice (win1_2.rect t)).set ↔ _
  rw [View.set_slice_whole, Rect.mem_set_unit]
  exact Iff.rfl

/-- Every index of the array is in the block of the point its row falls to (row `r` in block `r / 5000`). -/
theorem cover (i : S25000x128.Idx) : ∃ t : Fin cfg1.N, (cfg1.win 2).flush t = true ∧ i ∈ ((cfg1.win 2).blk t).view.set := by
  have hi0 : (i 0).val < 25000 := (i 0).isLt
  have hi1 : (i 1).val < 128 := (i 1).isLt
  obtain ⟨t, ht⟩ := idx_onto ⟨(i 0).val / 5000, by omega⟩
  have q0 : win1_2.index t (0 : Fin 2) = (i 0).val / 5000 := ht
  obtain ⟨-, -, -, -, -, q1⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array the call leaves: `scaled` of the two arrays it found. -/
theorem array_eq (c : Dev nD) : (dat1 V c).arrAt 2 cfg1.N = scaled (V c main_v15) (V c main_v1) :=
  (dat1 V c).arrAt_eq_of_cover 2 (scaled (V c main_v15) (V c main_v1)) (fun t _ => flushed_eq V c t) cover

end Cert.KernelIdeal.Scale1

end
-- ==== Proof.Linear2.lean ====
/-
  The third pallas_call, per grid point of 5000 rows: the rows of a [50000, 128] array scaled by a [50000, 1] column,
  multiplied into a [128, 128] matrix held whole, plus a [1, 128] row repeated down the rows. The narrowing of both
  matmul operands to bf16 changes no value on the extended reals, and a matmul into the zero accumulator is the plain sum
  over the contracted axis. Here: the array the call leaves is, index by index,
  `Σ_k (Y (r, k) · s (r, 0)) · M (k, j) + b (0, j)`, as one function of the four arrays the call finds when entered.
-/
import proofs.«131574_j43559558316711_1_alg».proof.Proof.Gen.KernelIdeal.Frame
import proofs.«131574_j43559558316711_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Linear2

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Entry `(r, j)`: the scaled row `r` of `Y` against column `j` of `M`, plus entry `j` of the row `b`. -/
def affine (Y : FVec Ideal S50000x128 .f32) (s : FVec Ideal S50000x1 .f32) (M : FVec Ideal S128x128 .f32)
    (b : FVec Ideal S1x128 .f32) : FVec Ideal S50000x128 .f32 :=
  fun i => (∑ k : Fin 128, (Y (ix2 (⟨(i 0).val, idx2_lt0 i⟩ : Fin 50000) k) * s (ix2 (⟨(i 0).val, idx2_lt0 i⟩ : Fin 50000) (0 : Fin 1)))
      * M (ix2 k (⟨(i 1).val, idx2_lt1 i⟩ : Fin 128))) + b (ix2 (0 : Fin 1) (⟨(i 1).val, idx2_lt1 i⟩ : Fin 128))

theorem affine_apply (Y : FVec Ideal S50000x128 .f32) (s : FVec Ideal S50000x1 .f32) (M : FVec Ideal S128x128 .f32)
    (b : FVec Ideal S1x128 .f32) (r : Fin 50000) (q : Fin 128) :
    affine Y s M b (ix2 r q) = (∑ k : Fin 128, (Y (ix2 r k) * s (ix2 r (0 : Fin 1))) * M (ix2 k q)) + b (ix2 (0 : Fin 1) q) := rfl

/-- A `[1, 128]` row broadcast down 5000 rows reads, at `(p, q)`, the row's entry `q`. -/
theorem row_broadcast_apply (v : FVec Ideal S1x128 .f32) (h : S1x128.Broadcasts S5000x128) (p : Fin 5000) (q : Fin 128) :
    broadcastTo S5000x128 v h (ix2 p q) = v (ix2 (0 : Fin 1) q) := by
  refine broadcastTo_apply v h (ix2 p q) (ix2 (0 : Fin 1) q) fun ax => ?_
  match ax with
  | ⟨0, _⟩ => rfl
  | ⟨1, _⟩ => show q.val = if (128 : Nat) = 1 then 0 else q.val; rw [if_neg (by decide)]

abbrev D := dot_S5000x128_S128x128_S5000x128_1_0_0_1_n_n

/-- The matmul's operand indices: at output `(p, q)` and contraction index `k`, the left operand is read at `(p, k)` and
    the right at `(k, q)`. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block matmul into the zero accumulator, read at `(p, q)`: the sum over `k` of the left operand at `(p, k)` times
    the right at `(k, q)`. -/
theorem matmul_zero_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- What one grid point stores, at row `p` and lane `q` of its block. -/
theorem stored_apply (x0 : FVec Ideal S5000x128 .f32) (x1 : FVec Ideal S5000x1 .f32) (x2 : FVec Ideal S128x128 .f32)
    (x3 : FVec Ideal S1x128 .f32) (p : Fin 5000) (q : Fin 128) :
    k2_pay1 (F := Ideal) x0 x1 x2 x3 (ix2 p q)
      = (∑ k : Fin 128, (x0 (ix2 p k) * x1 (ix2 p (0 : Fin 1))) * x2 (ix2 k q)) + x3 (ix2 (0 : Fin 1) q) := by
  unfold k2_pay1
  simp only [shapeCast_self]
  rw [addf_apply, matmul_zero_apply, row_broadcast_apply]
  simp only [truncf_apply, mulf_apply, Cert.LibKeepdims.broadcastTo_a1_ab_apply]

/-- If the loaded blocks are rows `5000 T … 5000 T + 4999` of `Y` and of `s`, the whole of `M` and the whole of `b`,
    what the point stores is those rows of `affine Y s M b`. -/
theorem stored_rows (Y : FVec Ideal S50000x128 .f32) (s : FVec Ideal S50000x1 .f32) (M : FVec Ideal S128x128 .f32)
    (b : FVec Ideal S1x128 .f32)
    (x0 : FVec Ideal S5000x128 .f32) (x1 : FVec Ideal S5000x1 .f32) (x2 : FVec Ideal S128x128 .f32) (x3 : FVec Ideal S1x128 .f32)
    (T : ℕ) (hT : T ≤ 9)
    (h0 : ∀ (p : Fin 5000) (k : Fin 128), x0 (ix2 p k) = Y (ix2 (⟨T * 5000 + p.val, by have := p.isLt; omega⟩ : Fin 50000) k))
    (h1 : ∀ (p : Fin 5000), x1 (ix2 p (0 : Fin 1)) = s (ix2 (⟨T * 5000 + p.val, by have := p.isLt; omega⟩ : Fin 50000) (0 : Fin 1)))
    (h2 : ∀ (k q : Fin 128), x2 (ix2 k q) = M (ix2 k q))
    (h3 : ∀ (q : Fin 128), x3 (ix2 (0 : Fin 1) q) = b (ix2 (0 : Fin 1) q))
    (p : Fin 5000) (q : Fin 128) :
    k2_pay1 (F := Ideal) x0 x1 x2 x3 (ix2 p q)
      = affine Y s M b (ix2 (⟨T * 5000 + p.val, by have := p.isLt; omega⟩ : Fin 50000) q) := by
  rw [stored_apply, affine_apply, h1, h3]
  simp only [h0, h2]

variable (V : (c : Dev nD) → (b : Ref sig .tc) → Buf (Elt Ideal) ((c : Thread nD τ).loc b))

/-- The printed index maps over the grid: the two row-blocked inputs move with the output, the matrix and the bias row
    stay at their one block. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) ≤ 9
    ∧ win2_4.index t (1 : Fin 2) = 0 :=
  (by decide +kernel : ∀ t : Fin grid2.N, _)

/-- Every block row index 0 … 9 is some point's. -/
theorem idx_onto : ∀ q0 : Fin 10, ∃ t : Fin cfg2.N, win2_4.index t (0 : Fin 2) = q0.val :=
  (by decide +kernel : ∀ q0 : Fin 10, ∃ t : Fin grid2.N, win2_4.index t (0 : Fin 2) = q0.val)

/-- What point `t` writes back is block `t` of `affine` of the four arrays the call finds. -/
theorem flushed_eq (c : Dev nD) (t : Fin cfg2.N) :
    (dat2 V c).flushed 4 t
      = ((cfg2.win 4).blk t).view.read (Elt Ideal) (affine (V c main_v29) (V c main_v0) (V c main_v30) (V c main_v31)) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz,
    View.ld_unit_zero (S := S128x128) hz, View.ld_unit_zero (S := S1x128) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  refine (stored_rows (V c main_v29) (V c main_v0) (V c main_v30) (V c main_v31)
    (iblk2 V c 0 t) (iblk2 V c 1 t) (iblk2 V c 2 t) (iblk2 V c 3 t) (win2_4.index t (0 : Fin 2)) e8 ?_ ?_ ?_ ?_ p q).trans ?_
  · intro p k
    show V c main_v29 (((cfg2.win 0).blk t).view.emb (ix2 p k)) = _
    refine congrArg (V c main_v29) (funext fun a => Fin.ext ?_)
    match a with
    | ⟨0, _⟩ => show win2_0.index t (0 : Fin 2) * 5000 + 1 * p.val = win2_4.index t (0 : Fin 2) * 5000 + p.val; omega
    | ⟨1, _⟩ => show win2_0.index t (1 : Fin 2) * 128 + 1 * k.val = k.val; omega
  · intro p
    show V c main_v0 (((cfg2.win 1).blk t).view.emb (ix2 p (0 : Fin 1))) = _
    refine congrArg (V c main_v0) (funext fun a => Fin.ext ?_)
    match a with
    | ⟨0, _⟩ => show win2_1.index t (0 : Fin 2) * 5000 + 1 * p.val = win2_4.index t (0 : Fin 2) * 5000 + p.val; omega
    | ⟨1, _⟩ => show win2_1.index t (1 : Fin 2) * 1 + 1 * 0 = 0; omega
  · intro k q
    show V c main_v30 (((cfg2.win 2).blk t).view.emb (ix2 k q)) = _
    refine congrArg (V c main_v30) (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · intro q
    show V c main_v31 (((cfg2.win 3).blk t).view.emb (ix2 (0 : Fin 1) q)) = _
    refine congrArg (V c main_v31) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · show _ = affine (V c main_v29) (V c main_v0) (V c main_v30) (V c main_v31) (((cfg2.win 4).blk t).view.emb (ix2 p q))
    refine congrArg (affine (V c main_v29) (V c main_v0) (V c main_v30) (V c main_v31)) (funext fun a => Fin.ext ?_)
    match a with
    | ⟨0, _⟩ => show win2_4.index t (0 : Fin 2) * 5000 + p.val = win2_4.index t (0 : Fin 2) * 5000 + 1 * p.val; omega
    | ⟨1, _⟩ => show q.val = win2_4.index t (1 : Fin 2) * 128 + 1 * q.val; omega

/-- An index of the array is in point `t`'s block iff each coordinate is in the block's range on its axis. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v32).slice (win2_4.rect t)).set ↔ _
  rw [View.set_slice_whole, Rect.mem_set_unit]
  exact Iff.rfl

/-- Every index of the array is in the block of the point its row falls to (row `r` in block `r / 5000`). -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto ⟨(i 0).val / 5000, by omega⟩
  have q0 : win2_4.index t (0 : Fin 2) = (i 0).val / 5000 := ht
  obtain ⟨-, -, -, -, -, -, -, -, -, q1⟩ := idx_facts t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The array the call leaves: `affine` of the four arrays it found. -/
theorem array_eq (c : Dev nD) :
    (dat2 V c).arrAt 4 cfg2.N = affine (V c main_v29) (V c main_v0) (V c main_v30) (V c main_v31) :=
  (dat2 V c).arrAt_eq_of_cover 4 (affine (V c main_v29) (V c main_v0) (V c main_v30) (V c main_v31))
    (fun t _ => flushed_eq V c t) cover

end Cert.KernelIdeal.Linear2

end
-- ==== Proof.Spec.lean ====
/-
  The two functions the whole computation is made of, index by index on the extended reals, over literal extents and
  independent of either program's text:
  * `rowScaled X s`: row `r` of an `[R, 128]` array times entry `r` of a length-`R` vector (a degree normalisation);
  * `linear Y s M b`: entry `(r, j)` is `Σ_k (Y (r, k) · s r) · M (k, j) + b j` (rows scaled, then a dense layer).
  Between them the hypergraph's two gather / scatter-add passes are the same host operations in both programs and are
  never opened. Also a vector of length `a` viewed as a `[1, a]` row, read at an index.
-/
import Idealize.ShloMosaic.Lib.Pipeline.Value
import Idealize.ShloMosaic.Lib.ValueIdx
import Idealize.ShloMosaic.PureOps.Ideal

noncomputable section

namespace Cert.Spec

open Idealize.ShloMosaic Idealize.ShloMosaic.ValueIdx

/-- Row `r` of `X` times `s r`. -/
def rowScaled {R : ℕ} (X : FVec Ideal ⟨2, ![R, 128]⟩ .f32) (s : FVec Ideal ⟨1, ![R]⟩ .f32) : FVec Ideal ⟨2, ![R, 128]⟩ .f32 :=
  fun i => X i * s (ix1 (⟨(i 0).val, idx2_lt0 i⟩ : Fin R))

theorem rowScaled_apply {R : ℕ} (X : FVec Ideal ⟨2, ![R, 128]⟩ .f32) (s : FVec Ideal ⟨1, ![R]⟩ .f32) (r : Fin R) (q : Fin 128) :
    rowScaled X s (ix2 r q) = X (ix2 r q) * s (ix1 r) := rfl

/-- The scaled row `r` of `Y` against column `j` of `M`, plus `b j`. -/
def linear (Y : FVec Ideal ⟨2, ![50000, 128]⟩ .f32) (s : FVec Ideal ⟨1, ![50000]⟩ .f32) (M : FVec Ideal ⟨2, ![128, 128]⟩ .f32)
    (b : FVec Ideal ⟨1, ![128]⟩ .f32) : FVec Ideal ⟨2, ![50000, 128]⟩ .f32 :=
  fun i => (∑ k : Fin 128, (Y (ix2 (⟨(i 0).val, idx2_lt0 i⟩ : Fin 50000) k) * s (ix1 (⟨(i 0).val, idx2_lt0 i⟩ : Fin 50000)))
      * M (ix2 k (⟨(i 1).val, idx2_lt1 i⟩ : Fin 128))) + b (ix1 (⟨(i 1).val, idx2_lt1 i⟩ : Fin 128))

theorem linear_apply (Y : FVec Ideal ⟨2, ![50000, 128]⟩ .f32) (s : FVec Ideal ⟨1, ![50000]⟩ .f32) (M : FVec Ideal ⟨2, ![128, 128]⟩ .f32)
    (b : FVec Ideal ⟨1, ![128]⟩ .f32) (r : Fin 50000) (q : Fin 128) :
    linear Y s M b (ix2 r q) = (∑ k : Fin 128, (Y (ix2 r k) * s (ix1 r)) * M (ix2 k q)) + b (ix1 q) := rfl

/-- An `[a]` array cast to `[1, a]` reads, at `(u, q)`, the operand at `q`: both sit at row-major position `q`. -/
theorem shapeCast_a_1a_apply {α : Type} {a : ℕ} (x : (⟨1, ![a]⟩ : Shape).Idx → α) (h : (⟨1, ![a]⟩ : Shape).ShapeCasts ⟨2, ![1, a]⟩)
    (u : Fin 1) (q : Fin a) : shapeCast ⟨2, ![1, a]⟩ x h (ix2 u q) = x (ix1 q) :=
  shapeCast_apply x h _ _ (by
    have hu : u.val = 0 := by omega
    rw [Shape.rowMajor_val_two, Shape.rowMajor_val_one]
    show q.val = u.val * a + q.val
    rw [hu, Nat.zero_mul, Nat.zero_add])

end Cert.Spec

end
-- ==== Proof.Stages.lean ====
/-
  The contents of the arrays at each boundary of the run, read back to the launch memory: what the first pallas_call
  finds and leaves, what the first gather / scatter-add pass makes of it, and so on to the result array. The two
  passes (`passA`: gather node rows by `h_rows`, weight by `h_vals`, scatter-add into hyperedges by `h_cols`; `passB`: the
  same with the roles of the two index vectors exchanged) are kept as whole functions and never opened. The column a
  pallas_call scales by is a length-`R` vector viewed as `[R, 1]`, and the bias row a length-128 vector viewed as
  `[1, 128]`: read at an index both are the vector's entry, which brings each call's array to `Spec.rowScaled` /
  `Spec.linear` of the launch arrays.
-/
import proofs.«131574_j43559558316711_1_alg».proof.Proof.Gen.KernelIdeal.Frame
import proofs.«131574_j43559558316711_1_alg».proof.Proof.Scale0
import proofs.«131574_j43559558316711_1_alg».proof.Proof.Scale1
import proofs.«131574_j43559558316711_1_alg».proof.Proof.Linear2
import proofs.«131574_j43559558316711_1_alg».proof.Proof.Spec
import proofs.«131574_j43559558316711_1_alg».proof.Proof.LibKeepdims
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-- Node rows gathered by the (wrapped) first index vector, weighted, and scatter-added into 25000 hyperedge rows by
    the second. -/
def passA (x : FVec Ideal S50000x128 .f32) (a1 a2 : IVec S600000 32) (a3 : FVec Ideal S600000 .f32) : FVec Ideal S25000x128 .f32 :=
  Host.scatterAdd (F := Ideal) scatter_S25000x128_S600000x1_S600000x128_1_0_0_1
    (broadcastInDim S25000x128 ![] bcast_S_S25000x128 (constant (F := Ideal) S_ .f32 0x00000000#32))
    (broadcastInDim S600000x1 ![0] bcast_S600000_S600000x1_0 a2)
    (mulf (Host.gather gather_S50000x128_S600000x1_S600000x128_1_0_n_n_0_1_1128 x
        (broadcastInDim S600000x1 ![0] bcast_S600000_S600000x1_0
          (select (cmpi .slt a1 (broadcastInDim S600000 ![] bcast_S_S600000 (constantI S_ 32 0#32)))
            (addi a1 (broadcastInDim S600000 ![] bcast_S_S600000 (constantI S_ 32 50000#32))) a1)))
      (broadcastInDim S600000x128 ![0, 1] bcast_S600000x1_S600000x128_0_1 (broadcastInDim S600000x1 ![0] bcast_S600000_S600000x1_0 a3)))

/-- Hyperedge rows gathered by the (wrapped) second index vector, weighted, and scatter-added into 50000 node rows by
    the first. -/
def passB (y : FVec Ideal S25000x128 .f32) (a1 a2 : IVec S600000 32) (a3 : FVec Ideal S600000 .f32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 a1)
    (mulf (Host.gather gather_S25000x128_S600000x1_S600000x128_1_0_n_n_0_1_1128 y
        (broadcastInDim S600000x1 ![0] bcast_S600000_S600000x1_0
          (select (cmpi .slt a2 (broadcastInDim S600000 ![] bcast_S_S600000 (constantI S_ 32 0#32)))
            (addi a2 (broadcastInDim S600000 ![] bcast_S_S600000 (constantI S_ 32 25000#32))) a2)))
      (broadcastInDim S600000x128 ![0, 1] bcast_S600000x1_S600000x128_0_1 (broadcastInDim S600000x1 ![0] bcast_S600000_S600000x1_0 a3)))

/-! ## The calls' arrays over a column and a row that are casts of vectors -/

/-- Scaling by a length-50000 vector viewed as a column is `Spec.rowScaled` by the vector. -/
theorem scaled0_cast (X : FVec Ideal S50000x128 .f32) (a : FVec Ideal S50000 .f32) (h : S50000.ShapeCasts S50000x1) :
    Scale0.scaled X (shapeCast S50000x1 a h) = Spec.rowScaled X a := by
  funext i
  obtain ⟨r, q, rfl⟩ : ∃ (r : Fin 50000) (q : Fin 128), i = ix2 r q := ⟨i 0, i 1, eq_ix2 i⟩
  rw [Scale0.scaled_apply, Spec.rowScaled_apply, Cert.LibKeepdims.shapeCast_a_a1_apply]

/-- The same at 25000 rows. -/
theorem scaled1_cast (X : FVec Ideal S25000x128 .f32) (a : FVec Ideal S25000 .f32) (h : S25000.ShapeCasts S25000x1) :
    Scale1.scaled X (shapeCast S25000x1 a h) = Spec.rowScaled X a := by
  funext i
  obtain ⟨r, q, rfl⟩ : ∃ (r : Fin 25000) (q : Fin 128), i = ix2 r q := ⟨i 0, i 1, eq_ix2 i⟩
  rw [Scale1.scaled_apply, Spec.rowScaled_apply, Cert.LibKeepdims.shapeCast_a_a1_apply]

/-- The third call's array over a column and a bias row that are casts of vectors is `Spec.linear` of the vectors. -/
theorem affine_cast (Y : FVec Ideal S50000x128 .f32) (a : FVec Ideal S50000 .f32) (h : S50000.ShapeCasts S50000x1)
    (M : FVec Ideal S128x128 .f32) (b : FVec Ideal S128 .f32) (hb : S128.ShapeCasts S1x128) :
    Linear2.affine Y (shapeCast S50000x1 a h) M (shapeCast S1x128 b hb) = Spec.linear Y a M b := by
  funext i
  obtain ⟨r, q, rfl⟩ : ∃ (r : Fin 50000) (q : Fin 128), i = ix2 r q := ⟨i 0, i 1, eq_ix2 i⟩
  rw [Linear2.affine_apply, Spec.linear_apply, Cert.LibKeepdims.shapeCast_a_a1_apply, Cert.Spec.shapeCast_a_1a_apply]

/-! ## The boundaries' contents, read back to the launch memory -/

variable (m : (ℓ : Loc nD τ sig) → Buf (Elt Ideal) ℓ) (ρ : Dev nD → PrngReg) (c : Dev nD)

/-- A buffer read through a stretch of host operations: the operations' composed term of the contents before it. -/
local macro "through_host" : tactic =>
  `(tactic| (dsimp only [hostOps0, hostOps1, hostOps2]; after_results_simp <;> rfl))

/-- The first call finds the first argument as launched, -/
theorem in0_x : V1 m ρ c main_arg0 = m ((c : Thread nD τ).loc main_arg0) := by
  show StableHlo.after hostOps0 (W0 m ρ c) (Proc.devRef .tc main_arg0) = _
  through_host

/-- and the vertex-degree vector viewed as a column. -/
theorem in0_s : V1 m ρ c main_v0 = shapeCast S50000x1 (m ((c : Thread nD τ).loc main_arg4)) shapeCasts_S50000_S50000x1 := by
  show StableHlo.after hostOps0 (W0 m ρ c) (Proc.devRef .tc main_v0) = _
  through_host

/-- It leaves the first argument's rows scaled by the vertex-degree vector. -/
theorem out0 : W2 m ρ c (Proc.devRef .tc main_v2)
    = Spec.rowScaled (m ((c : Thread nD τ).loc main_arg0)) (m ((c : Thread nD τ).loc main_arg4)) := by
  refine (W2_arr m ρ c 2).trans ?_
  rw [Scale0.array_eq (V1 m ρ) c, in0_x, in0_s, scaled0_cast]

/-- No call's window and no host operation before the first call's exit writes an argument. -/
theorem W2_arg1 : W2 m ρ c (Proc.devRef .tc main_arg1) = m ((c : Thread nD τ).loc main_arg1) :=
  (W2_of_ne m ρ c main_arg1 (by decide)).trans (by show StableHlo.after hostOps0 (W0 m ρ c) _ = _; through_host)
theorem W2_arg2 : W2 m ρ c (Proc.devRef .tc main_arg2) = m ((c : Thread nD τ).loc main_arg2) :=
  (W2_of_ne m ρ c main_arg2 (by decide)).trans (by show StableHlo.after hostOps0 (W0 m ρ c) _ = _; through_host)
theorem W2_arg3 : W2 m ρ c (Proc.devRef .tc main_arg3) = m ((c : Thread nD τ).loc main_arg3) :=
  (W2_of_ne m ρ c main_arg3 (by decide)).trans (by show StableHlo.after hostOps0 (W0 m ρ c) _ = _; through_host)
theorem W2_arg6 : W2 m ρ c (Proc.devRef .tc main_arg6) = m ((c : Thread nD τ).loc main_arg6) :=
  (W2_of_ne m ρ c main_arg6 (by decide)).trans (by show StableHlo.after hostOps0 (W0 m ρ c) _ = _; through_host)
theorem W2_arg7 : W2 m ρ c (Proc.devRef .tc main_arg7) = m ((c : Thread nD τ).loc main_arg7) :=
  (W2_of_ne m ρ c main_arg7 (by decide)).trans (by show StableHlo.after hostOps0 (W0 m ρ c) _ = _; through_host)

/-- The second call finds the first pass's result -/
theorem in1_y : V3 m ρ c main_v15
    = passA (W2 m ρ c (Proc.devRef .tc main_v2)) (W2 m ρ c (Proc.devRef .tc main_arg1)) (W2 m ρ c (Proc.devRef .tc main_arg2))
        (W2 m ρ c (Proc.devRef .tc main_arg3)) := by
  show StableHlo.after hostOps1 (W2 m ρ c) (Proc.devRef .tc main_v15) = _
  through_host

/-- and the hyperedge-degree vector viewed as a column (made before the first call, touched by nothing since). -/
theorem in1_s : V3 m ρ c main_v1 = shapeCast S25000x1 (m ((c : Thread nD τ).loc main_arg5)) shapeCasts_S25000_S25000x1 := by
  have h3 : W3 m ρ c (Proc.devRef .tc main_v1) = W2 m ρ c (Proc.devRef .tc main_v1) := by
    show StableHlo.after hostOps1 (W2 m ρ c) _ = _
    through_host
  have h1 : W1 m ρ c (Proc.devRef .tc main_v1) = shapeCast S25000x1 (m ((c : Thread nD τ).loc main_arg5)) shapeCasts_S25000_S25000x1 := by
    show StableHlo.after hostOps0 (W0 m ρ c) _ = _
    through_host
  exact h3.trans ((W2_of_ne m ρ c main_v1 (by decide)).trans h1)

/-- It leaves the first pass's result scaled by the hyperedge-degree vector. -/
theorem out1 : W4 m ρ c (Proc.devRef .tc main_v16)
    = Spec.rowScaled (passA (Spec.rowScaled (m ((c : Thread nD τ).loc main_arg0)) (m ((c : Thread nD τ).loc main_arg4)))
        (m ((c : Thread nD τ).loc main_arg1)) (m ((c : Thread nD τ).loc main_arg2)) (m ((c : Thread nD τ).loc main_arg3)))
      (m ((c : Thread nD τ).loc main_arg5)) := by
  refine (W4_arr m ρ c 2).trans ?_
  rw [Scale1.array_eq (V3 m ρ) c, in1_y, in1_s, scaled1_cast, out0, W2_arg1, W2_arg2, W2_arg3]

/-- Nor does anything up to the second call's exit. -/
theorem W4_arg1 : W4 m ρ c (Proc.devRef .tc main_arg1) = m ((c : Thread nD τ).loc main_arg1) :=
  (W4_of_ne m ρ c main_arg1 (by decide)).trans ((show StableHlo.after hostOps1 (W2 m ρ c) (Proc.devRef .tc main_arg1) = W2 m ρ c (Proc.devRef .tc main_arg1) by through_host).trans (W2_arg1 m ρ c))
theorem W4_arg2 : W4 m ρ c (Proc.devRef .tc main_arg2) = m ((c : Thread nD τ).loc main_arg2) :=
  (W4_of_ne m ρ c main_arg2 (by decide)).trans ((show StableHlo.after hostOps1 (W2 m ρ c) (Proc.devRef .tc main_arg2) = W2 m ρ c (Proc.devRef .tc main_arg2) by through_host).trans (W2_arg2 m ρ c))
theorem W4_arg3 : W4 m ρ c (Proc.devRef .tc main_arg3) = m ((c : Thread nD τ).loc main_arg3) :=
  (W4_of_ne m ρ c main_arg3 (by decide)).trans ((show StableHlo.after hostOps1 (W2 m ρ c) (Proc.devRef .tc main_arg3) = W2 m ρ c (Proc.devRef .tc main_arg3) by through_host).trans (W2_arg3 m ρ c))
theorem W4_arg6 : W4 m ρ c (Proc.devRef .tc main_arg6) = m ((c : Thread nD τ).loc main_arg6) :=
  (W4_of_ne m ρ c main_arg6 (by decide)).trans ((show StableHlo.after hostOps1 (W2 m ρ c) (Proc.devRef .tc main_arg6) = W2 m ρ c (Proc.devRef .tc main_arg6) by through_host).trans (W2_arg6 m ρ c))
theorem W4_arg7 : W4 m ρ c (Proc.devRef .tc main_arg7) = m ((c : Thread nD τ).loc main_arg7) :=
  (W4_of_ne m ρ c main_arg7 (by decide)).trans ((show StableHlo.after hostOps1 (W2 m ρ c) (Proc.devRef .tc main_arg7) = W2 m ρ c (Proc.devRef .tc main_arg7) by through_host).trans (W2_arg7 m ρ c))

/-- The third call finds the second pass's result, -/
theorem in2_y : V5 m ρ c main_v29
    = passB (W4 m ρ c (Proc.devRef .tc main_v16)) (W4 m ρ c (Proc.devRef .tc main_arg1)) (W4 m ρ c (Proc.devRef .tc main_arg2))
        (W4 m ρ c (Proc.devRef .tc main_arg3)) := by
  show StableHlo.after hostOps2 (W4 m ρ c) (Proc.devRef .tc main_v29) = _
  through_host

/-- the weight matrix transposed, -/
theorem in2_M : V5 m ρ c main_v30
    = transpose S128x128 [1, 0] (W4 m ρ c (Proc.devRef .tc main_arg6)) transposes_S128x128_S128x128_1_0 := by
  show StableHlo.after hostOps2 (W4 m ρ c) (Proc.devRef .tc main_v30) = _
  through_host

/-- the bias viewed as a row, -/
theorem in2_b : V5 m ρ c main_v31 = shapeCast S1x128 (W4 m ρ c (Proc.devRef .tc main_arg7)) shapeCasts_S128_S1x128 := by
  show StableHlo.after hostOps2 (W4 m ρ c) (Proc.devRef .tc main_v31) = _
  through_host

/-- and the vertex-degree column of the first call: an input window of that call, which leaves it as found, and
    nothing later writes it. -/
theorem in2_s : V5 m ρ c main_v0 = shapeCast S50000x1 (m ((c : Thread nD τ).loc main_arg4)) shapeCasts_S50000_S50000x1 := by
  have h5 : W5 m ρ c (Proc.devRef .tc main_v0) = W4 m ρ c (Proc.devRef .tc main_v0) := by
    show StableHlo.after hostOps2 (W4 m ρ c) _ = _
    through_host
  have h3 : W3 m ρ c (Proc.devRef .tc main_v0) = W2 m ρ c (Proc.devRef .tc main_v0) := by
    show StableHlo.after hostOps1 (W2 m ρ c) _ = _
    through_host
  have h2 : W2 m ρ c (Proc.devRef .tc main_v0) = V1 m ρ c main_v0 :=
    (W2_arr m ρ c 1).trans (((dat0 (V1 m ρ) c).arrAt_in 1 rfl _).trans (A_eq0 (V1 m ρ) c 1))
  exact h5.trans ((W4_of_ne m ρ c main_v0 (by decide)).trans (h3.trans (h2.trans (in0_s m ρ c))))

/-- The result as one term of the launch arrays: the first argument's rows scaled by the vertex degrees, passed to
    the hyperedges, scaled by the hyperedge degrees, passed back to the nodes, then scaled again and put through the
    dense layer. -/
def result (c : Dev nD) : FVec Ideal S50000x128 .f32 :=
  Spec.linear
    (passB (Spec.rowScaled (passA (Spec.rowScaled (m ((c : Thread nD τ).loc main_arg0)) (m ((c : Thread nD τ).loc main_arg4)))
        (m ((c : Thread nD τ).loc main_arg1)) (m ((c : Thread nD τ).loc main_arg2)) (m ((c : Thread nD τ).loc main_arg3)))
      (m ((c : Thread nD τ).loc main_arg5)))
      (m ((c : Thread nD τ).loc main_arg1)) (m ((c : Thread nD τ).loc main_arg2)) (m ((c : Thread nD τ).loc main_arg3)))
    (m ((c : Thread nD τ).loc main_arg4))
    (transpose S128x128 [1, 0] (m ((c : Thread nD τ).loc main_arg6)) transposes_S128x128_S128x128_1_0)
    (m ((c : Thread nD τ).loc main_arg7))

/-- The result array at the last boundary is that term. -/
theorem result_eq : W6 m ρ c (Proc.devRef .tc main_v32) = result m c := by
  refine (W6_arr m ρ c 4).trans ?_
  rw [Linear2.array_eq (V5 m ρ) c, in2_y, in2_s, in2_M, in2_b, out1, W4_arg1, W4_arg2, W4_arg3, W4_arg6, W4_arg7, affine_cast]
  rfl

end Cert.KernelIdeal.Stages

end
-- ==== Proof.RefForm.lean ====
/-
  The reference's own operations brought to the forms of `Spec`: a product with a vector broadcast first to a column and
  then along the lanes is `Spec.rowScaled` by the vector; the `dot_general` of such a product with a matrix, plus a
  vector broadcast to a row and then down the rows, is `Spec.linear`. Each layout operation is read at an index by the
  reference's generated read lemmas.
-/
import proofs.«131574_j43559558316711_1_alg».proof.Proof.Gen.ReferenceIdeal.Read
import proofs.«131574_j43559558316711_1_alg».proof.Proof.Spec

noncomputable section

namespace Cert.ReferenceIdeal.RefForm

open Cert.ReferenceIdeal Cert.ReferenceIdeal.Gen
open Idealize.ShloMosaic Idealize.ShloMosaic.TcCoe Idealize.ShloMosaic.ValueIdx Idealize.SL.Sem

/-- A length-50000 vector broadcast to a column and then along the lanes, multiplied in: the rows scaled. -/
theorem mul_bcast50 (X : FVec Ideal S50000x128 .f32) (a : FVec Ideal S50000 .f32) :
    mulf X (broadcastInDim S50000x128 ![0, 1] bcast_S50000x1_S50000x128_0_1 (broadcastInDim S50000x1 ![0] bcast_S50000_S50000x1_0 a))
      = Spec.rowScaled X a := by
  funext i
  obtain ⟨r, q, rfl⟩ : ∃ (r : Fin 50000) (q : Fin 128), i = ix2 r q := ⟨i 0, i 1, eq_ix2 i⟩
  rw [mulf_apply, Spec.rowScaled_apply]
  show _ * Read.val_main_v1 (F := Ideal) a (ix2 r q) = _
  rw [Read.val_main_v1_apply, Read.val_main_v0_apply]
  refine congrArg (X (ix2 r q) * ·) (congrArg a (funext fun d => ?_))
  match d with
  | ⟨0, _⟩ => rfl

/-- The same at 25000 rows. -/
theorem mul_bcast25 (X : FVec Ideal S25000x128 .f32) (a : FVec Ideal S25000 .f32) :
    mulf X (broadcastInDim S25000x128 ![0, 1] bcast_S25000x1_S25000x128_0_1 (broadcastInDim S25000x1 ![0] bcast_S25000_S25000x1_0 a))
      = Spec.rowScaled X a := by
  funext i
  obtain ⟨r, q, rfl⟩ : ∃ (r : Fin 25000) (q : Fin 128), i = ix2 r q := ⟨i 0, i 1, eq_ix2 i⟩
  rw [mulf_apply, Spec.rowScaled_apply]
  show _ * Read.val_main_v17 (F := Ideal) a (ix2 r q) = _
  rw [Read.val_main_v17_apply, Read.val_main_v16_apply]
  refine congrArg (X (ix2 r q) * ·) (congrArg a (funext fun d => ?_))
  match d with
  | ⟨0, _⟩ => rfl

/-- The host's `dot_general` read at `(r, q)`: the sum over `k` of the left operand at `(r, k)` times the right at
    `(k, q)`. -/
theorem dot_apply (y0 : FVec Ideal S50000x128 .f32) (y1 : FVec Ideal S128x128 .f32) (r : Fin 50000) (q : Fin 128) :
    Host.dotGeneral dot_S50000x128_S128x128_S50000x128_1_0_0_1_n_n none y0 y1 (ix2 r q)
      = ∑ k : Fin 128, y0 (ix2 r k) * y1 (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r q) ((ValueIdx.contrEquiv1 dot_S50000x128_S128x128_S50000x128_1_0_0_1_n_n 128 rfl rfl).symm k) = ix2 r k := funext fun a => Fin.ext (by
    match a with
    | ⟨0, _⟩ => exact Read.lhs_main_v36_0 _ _
    | ⟨1, _⟩ => exact (Read.lhs_main_v36_1 _ _).trans hk)
  have er : dot_S50000x128_S128x128_S50000x128_1_0_0_1_n_n.rhsIdx (ix2 r q) ((ValueIdx.contrEquiv1 dot_S50000x128_S128x128_S50000x128_1_0_0_1_n_n 128 rfl rfl).symm k) = ix2 k q := funext fun a => Fin.ext (by
    match a with
    | ⟨0, _⟩ => exact (Read.rhs_main_v36_0 _ _).trans hk
    | ⟨1, _⟩ => exact Read.rhs_main_v36_1 _ _)
  rw [el, er]

/-- The reference's last three operations on a scaled array: `Spec.linear`. -/
theorem linear_form (Y : FVec Ideal S50000x128 .f32) (a : FVec Ideal S50000 .f32) (M : FVec Ideal S128x128 .f32)
    (b : FVec Ideal S128 .f32) :
    addf (Host.dotGeneral dot_S50000x128_S128x128_S50000x128_1_0_0_1_n_n none
        (mulf Y (broadcastInDim S50000x128 ![0, 1] bcast_S50000x1_S50000x128_0_1 (broadcastInDim S50000x1 ![0] bcast_S50000_S50000x1_0 a))) M)
      (broadcastInDim S50000x128 ![0, 1] bcast_S1x128_S50000x128_0_1 (broadcastInDim S1x128 ![1] bcast_S128_S1x128_1 b))
      = Spec.linear Y a M b := by
  rw [mul_bcast50]
  funext i
  obtain ⟨r, q, rfl⟩ : ∃ (r : Fin 50000) (q : Fin 128), i = ix2 r q := ⟨i 0, i 1, eq_ix2 i⟩
  rw [addf_apply, dot_apply, Spec.linear_apply]
  show _ + Read.val_main_v38 (F := Ideal) b (ix2 r q) = _
  rw [Read.val_main_v38_apply, Read.val_main_v37_apply]
  refine congrArg₂ (· + ·) (Finset.sum_congr rfl fun k _ => rfl) (congrArg b (funext fun d => ?_))
  match d with
  | ⟨0, _⟩ => rfl

end Cert.ReferenceIdeal.RefForm

end
-- ==== Proof.lean ====
/-
  A hypergraph convolution layer, `out = (D_v · H · (D_e · Hᵀ · (D_v · X))) · Wᵀ + b`, with `H` given by 600000
  (node, hyperedge, weight) triples. The kernel does the three row scalings in pallas_calls (the last one fused with the
  dense layer, its matmul operands narrowed to bf16) and the two incidence passes as host gathers and scatter-adds; the
  reference does everything on the host.

  On the extended reals the two programs compute the same array, operation by operation in the same grouping, so no
  algebraic law beyond reading each operation at an index is needed, and finiteness of the inputs is never used:
  * each scaling call leaves `X (r, j) · s r` (`Spec.rowScaled`), the reference's product with the vector broadcast
    to the array's shape likewise;
  * the two incidence passes are literally the same host operations on both sides and are carried whole;
  * the last call leaves `Σ_k (Y (r, k) · s r) · Wᵀ (k, j) + b j` (`Spec.linear`): narrowing to bf16 is the identity on the
    extended reals and a matmul into a zero accumulator is the contraction's plain sum, which is what the reference's
    `dot_general` plus the broadcast bias is.
  The kernel's frame and the reference's run are the generated ones; the kernel's run is read once more with the result
  array named (`Named.run_named`), and `Stages.result_eq` reads that array back to the launch memory.
-/
import proofs.«131574_j43559558316711_1_alg».proof.Defs
import proofs.«131574_j43559558316711_1_alg».proof.Proof.Gen.Kernel
import proofs.«131574_j43559558316711_1_alg».proof.Proof.Gen.Kernel.Skeleton
import proofs.«131574_j43559558316711_1_alg».proof.Proof.Gen.Kernel.Launch
import proofs.«131574_j43559558316711_1_alg».proof.Proof.Gen.Kernel.Points
import proofs.«131574_j43559558316711_1_alg».proof.Proof.Gen.Kernel.Frame
import proofs.«131574_j43559558316711_1_alg».proof.Proof.Gen.KernelIdeal
import proofs.«131574_j43559558316711_1_alg».proof.Proof.Gen.KernelIdeal.Skeleton
import proofs.«131574_j43559558316711_1_alg».proof.Proof.Gen.KernelIdeal.Launch
import proofs.«131574_j43559558316711_1_alg».proof.Proof.Gen.KernelIdeal.Points
import proofs.«131574_j43559558316711_1_alg».proof.Proof.Gen.KernelIdeal.Frame
import proofs.«131574_j43559558316711_1_alg».proof.Proof.Gen.ReferenceIdeal
import proofs.«131574_j43559558316711_1_alg».proof.Proof.Gen.ReferenceIdeal.Run
import proofs.«131574_j43559558316711_1_alg».proof.Proof.Gen.ReferenceIdeal.Read
import proofs.«131574_j43559558316711_1_alg».proof.Proof.Gen.Pre_finite_inputs
import proofs.«131574_j43559558316711_1_alg».proof.Proof.LaunchNamed
import proofs.«131574_j43559558316711_1_alg».proof.Proof.Stages
import proofs.«131574_j43559558316711_1_alg».proof.Proof.RefForm
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at `Stages.result` of arguments that agree: the kernel's by the stages read
    back, the reference's by bringing its scalings and its dense layer to the same index forms, after which the two
    terms are the same operations of the same arrays. -/
theorem algebraic : Cert.algebraic_KernelIdeal_ReferenceIdeal := by
  intro m ρ m' ρ' _ hagree
  refine ⟨fun c => Cert.KernelIdeal.Stages.result m c, ?_, ?_⟩
  · exact (θ_run Cert.KernelIdeal.defs _ _).mono
      (fun r h c => ⟨(h c).1.trans (Cert.KernelIdeal.Stages.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7,
      Cert.ReferenceIdeal.RefForm.linear_form, Cert.ReferenceIdeal.RefForm.mul_bcast25, Cert.ReferenceIdeal.RefForm.mul_bcast50]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
